-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel

variable [Facts]

def fn {F : FTy → Type} [FloatOps F] (main_arg0 : FVec F S4096x64x256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  main_v3
-- ==== Kernel.lean ====
abbrev S4096x64x256 : Shape := ⟨3, ![4096, 64, 256]⟩
abbrev S2016 : Shape := ⟨1, ![2016]⟩
abbrev S4096x64x64 : Shape := ⟨3, ![4096, 64, 64]⟩
abbrev S128x64x256 : Shape := ⟨3, ![128, 64, 256]⟩
abbrev S128x64x64 : Shape := ⟨3, ![128, 64, 64]⟩
abbrev S_ : Shape := ⟨0, ![]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 22
  | .vmem => 4
  | .smem => 0
  | _ => 0

abbrev bufTy : (tb : Table) → Fin (tcTables nBuf tb) → BufTy
  | .hbm, ⟨0, _⟩ => ⟨S4096x64x256, .f32⟩
  | .hbm, ⟨1, _⟩ => ⟨S2016, .i32⟩
  | .hbm, ⟨2, _⟩ => ⟨S2016, .i32⟩
  | .hbm, ⟨3, _⟩ => ⟨S4096x64x64, .f32⟩
  | .hbm, ⟨4, _⟩ => ⟨S_, .i32⟩
  | .hbm, ⟨5, _⟩ => ⟨S2016, .i32⟩
  | .hbm, ⟨6, _⟩ => ⟨S2016, .i1⟩
  | .hbm, ⟨7, _⟩ => ⟨S_, .i32⟩
  | .hbm, ⟨8, _⟩ => ⟨S2016, .i32⟩
  | .hbm, ⟨9, _⟩ => ⟨S2016, .i32⟩
  | .hbm, ⟨10, _⟩ => ⟨S2016, .i32⟩
  | .hbm, ⟨11, _⟩ => ⟨S_, .i32⟩
  | .hbm, ⟨12, _⟩ => ⟨S2016, .i32⟩
  | .hbm, ⟨13, _⟩ => ⟨S2016, .i1⟩
  | .hbm, ⟨14, _⟩ => ⟨S_, .i32⟩
  | .hbm, ⟨15, _⟩ => ⟨S2016, .i32⟩
  | .hbm, ⟨16, _⟩ => ⟨S2016, .i32⟩
  | .hbm, ⟨17, _⟩ => ⟨S2016, .i32⟩
  | .hbm, ⟨18, _⟩ => ⟨S2016x1, .i32⟩
  | .hbm, ⟨19, _⟩ => ⟨S2016x1, .i32⟩
  | .hbm, ⟨20, _⟩ => ⟨S2016x2, .i32⟩
  | .hbm, ⟨21, _⟩ => ⟨S4096x2016, .f32⟩
  | .local _ .vmem, ⟨0, _⟩ => ⟨S128x64x256, .f32⟩
  | .local _ .vmem, ⟨1, _⟩ => ⟨S128x64x256, .f32⟩
  | .local _ .vmem, ⟨2, _⟩ => ⟨S128x64x64, .f32⟩
  | .local _ .vmem, ⟨3, _⟩ => ⟨S128x64x64, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x256_S128x64x256_0_0_0 : ∀ a, (![0, 0, 0] : Fin 3 → Nat) a + S128x64x256.size a ≤ S128x64x256.size a
  h_S128x64x256 : 0 < S128x64x256.numel
  bitsLt_bf16_f32 : FTy.bits .bf16 < FTy.bits .f32
  inb_S128x64x64_S128x64x64_0_0_0 : ∀ a, (![0, 0, 0] : Fin 3 → Nat) a + S128x64x64.size a ≤ S128x64x64.size a
  h_S128x64x64 : 0 < S128x64x64.numel
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S128x64x256_S128x64x256_S128x64x64_2_2_1_1_0_0_wf : DotDims.WF S128x64x256 S128x64x256 S128x64x64 [2] [2] [1] [1] [0] [0]
  gather_S4096x64x64_S2016x2_S4096x2016_0_12_n_n_12_1_409611_wf : GatherDims.WF S4096x64x64 S2016x2 S4096x2016 [0] [1, 2] [] [1, 2] [] 1 ![4096, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S4096x64x256.size a
  hwx0_0 : ∀ i : grid0.Coords, EltTy.bits .f32 = 32 ∨ (Rect.block (s := S4096x64x256) S128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)

variable [Facts₀]

def dot_S128x64x256_S128x64x256_S128x64x64_2_2_1_1_0_0 : DotDims S128x64x256 S128x64x256 S128x64x64 where
  lhsContracting := [2]
  rhsContracting := [2]
  lhsNonContracting := [1]
  rhsNonContracting := [1]
  lhsBatch := [0]
  rhsBatch := [0]
  wf := dot_S128x64x256_S128x64x256_S128x64x64_2_2_1_1_0_0_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

abbrev win0_0 : Pipeline.Window sig grid0 :=
  Pipeline.Window.ofSpec (Memref.whole main_arg0) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S4096x64x64 : Shape := ⟨3, ![4096, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 137
  | .vmem => 0
  | .smem => 0
  | _ => 0

abbrev hbmTy0_0 (i : Nat) : BufTy := match i % 128 with
  | 0 => ⟨S4096x64x256, .f32⟩
  | 1 => ⟨S4096x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S4096x64x256, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S4096x2016, .f32⟩
  | _ => ⟨S4096x64x256, .f32⟩

abbrev hbmTy (i : Nat) : BufTy := match i / 128 with
  | 0 => hbmTy0_0 i
  | 1 => hbmTy0_1 i
  | _ => ⟨S4096x64x256, .f32⟩

abbrev bufTy : (tb : Table) → Fin (tcTables nBuf tb) → BufTy
  | .hbm, ⟨i, _⟩ => hbmTy i
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S4096x64x256_S4096x64x256_S4096x64x64_2_2_1_1_0_0_wf : DotDims.WF S4096x64x256 S4096x64x256 S4096x64x64 [2] [2] [1] [1] [0] [0]
  scatter_S2016_S4096x1_S4096_n_0_0_1_wf : ScatterDims.WF S2016 S4096x1 S4096 [] [0] [0] 1
  gather_S4096x64x64_S2016x2_S4096x2016_0_12_n_n_12_1_409611_wf : GatherDims.WF S4096x64x64 S2016x2 S4096x2016 [0] [1, 2] [] [1, 2] [] 1 ![4096, 1, 1]

variable [Facts₀]

def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

class Facts : Prop extends Facts₀ where

variable [Facts]
-- ==== Proof.Spec.lean ====
/-
  The common vocabulary of the two programs.  Both compute, for a batch of 4096 matrices x[b] of shape 64 × 256, the Gram
  matrix g[b, i, j] = Σ_k x[b, i, k] · x[b, j, k] and then keep, for every batch row, its 2016 = 64 · 63 / 2 entries strictly
  above the diagonal, in row-major order of the pairs (i, j), i < j.  The selection is one gather through a table of index
  pairs: `pick` is that last stretch (wrapping a negative index by the extent 64, pairing the two index columns, the gather),
  as one function of the Gram array and the two index columns; `gramSpec` is the Gram array read entry by entry.
-/
import Idealize.ShloMosaic.PureOps
import Idealize.ShloMosaic.PureOps.Ideal
import Idealize.ShloMosaic.PureOps.Ideal.Laws
import Idealize.ShloMosaic.Lib.ValueIdx

noncomputable section

namespace Cert.TriuGram

open Idealize.ShloMosaic

abbrev SX : Shape := ⟨3, ![4096, 64, 256]⟩
abbrev SG : Shape := ⟨3, ![4096, 64, 64]⟩
abbrev S0 : Shape := ⟨0, ![]⟩
abbrev SP : Shape := ⟨1, ![2016]⟩
abbrev SP1 : Shape := ⟨2, ![2016, 1]⟩
abbrev SP2 : Shape := ⟨2, ![2016, 2]⟩
abbrev SO : Shape := ⟨2, ![4096, 2016]⟩

/-- A possibly negative index into an axis of extent 64, wrapped: r + 64 where r < 0, else r. -/
def wrapIdx (hb : S0.BroadcastsInDim SP (![] : Fin 0 → Fin SP.rank)) (r : IVec SP 32) : IVec SP 32 :=
  select (cmpi .slt r (broadcastInDim SP ![] hb (constantI S0 32 0#32)))
    (addi r (broadcastInDim SP ![] hb (constantI S0 32 64#32))) r

/-- The selection: entry (b, p) of the result is g[b, rows p, cols p] (indices wrapped, then clamped by the gather). -/
def pick {F : FTy → Type} [FloatOps F] (gd : GatherDims SG SP2 SO)
    (hb : S0.BroadcastsInDim SP (![] : Fin 0 → Fin SP.rank))
    (hb1 : SP.BroadcastsInDim SP1 (![0] : Fin 1 → Fin SP1.rank))
    (hc : Shape.Concatenates [SP1, SP1] SP2 1)
    (g : FVec F SG .f32) (rows cols : IVec SP 32) : FVec F SO .f32 :=
  Host.gather gd g (concatenate SP2 1 [⟨SP1, broadcastInDim SP1 ![0] hb1 (wrapIdx hb rows)⟩,
    ⟨SP1, broadcastInDim SP1 ![0] hb1 (wrapIdx hb cols)⟩] hc)

/-- The dot record of the Gram product: batch axis 0 of both operands, their axes 1 kept, their axes 2 contracted. -/
def gramDims : DotDims SX SX SG where
  lhsContracting := [2]
  rhsContracting := [2]
  lhsNonContracting := [1]
  rhsNonContracting := [1]
  lhsBatch := [0]
  rhsBatch := [0]
  wf := by decide

/-- The Gram array of x along a dot record d (batch axis 0, rows axis 1 of both operands, contraction over axis 2):
    entry J is the sum over the contraction index of the two factors. -/
def gramSpec (d : DotDims SX SX SG) (x : FVec Ideal SX .f32) : FVec Ideal SG .f32 :=
  fun J => ∑ k : d.contr.Idx, x (d.lhsIdx J k) * x (d.rhsIdx J k)

end Cert.TriuGram

end
-- ==== Proof.Tables.lean ====
/-
  The kernel's index table.  The kernel carries the pairs (i, j), i < j < 64, as two literal columns of 2016 words each.
  What the proof needs of them is decided entry by entry: the first is below the second, the second below 64, and the pair
  (i, j) has exactly k + 1 pairs up to and including itself in row-major order, i · (127 − i) / 2 + (j − i) = k + 1.
-/
import proofs.«117476_j32238024524281_1_alg».proof.KernelIdeal
import proofs.«117476_j32238024524281_1_alg».proof.Proof.Spec

namespace Cert.TriuGram

open Idealize.ShloMosaic Cert.KernelIdeal

/-- The first coordinates, as the program's constant holds them. -/
def lit0v : IVec SP 32 := fun i => lit0 (S2016.rowMajor i)
/-- The second coordinates. -/
def lit1v : IVec SP 32 := fun i => lit1 (S2016.rowMajor i)

/-- Entry k of the two columns is the k-th pair above the diagonal. -/
theorem table_facts : ∀ k : Fin 2016,
    (lit0 k).toNat < (lit1 k).toNat ∧ (lit1 k).toNat < 64
      ∧ (lit0 k).toNat * (127 - (lit0 k).toNat) / 2 + ((lit1 k).toNat - (lit0 k).toNat) = k.val + 1 := by
  decide +kernel

end Cert.TriuGram
-- ==== Proof.KernelBlocks.lean ====
/-
  The region of the kernel's program, read as one array.  The region tiles the batch axis in 32 blocks of 128 matrices; at a
  point t the body multiplies each matrix of the block by its own transpose (the narrowing to bf16 is the identity on extended
  reals, the accumulator is zero), so what point t writes back is block t of the Gram array of the argument; the 32 blocks
  tile the output array, which therefore ends holding the Gram array.
-/
import proofs.«117476_j32238024524281_1_alg».proof.Proof.Gen.KernelIdeal.Frame
import proofs.«117476_j32238024524281_1_alg».proof.Proof.Spec
import Idealize.ShloMosaic.Lib.Pipeline.Value
import Idealize.ShloMosaic.Lib.ValueIdx
import Idealize.ShloMosaic.PureOps.Ideal.Laws

noncomputable section

namespace Cert.TriuGram.KV

open Idealize.ShloMosaic Idealize.ShloMosaic.TcCoe Idealize.SL.Sem
open Cert.KernelIdeal Cert.KernelIdeal.Gen Cert.KernelIdeal.Facts₀
open Idealize.ShloMosaic.ValueIdx
open Idealize.ShloMosaic.Pipeline (Dat)

/-- The product record of one block: 128 matrices, each against its own transpose. -/
abbrev blockDims : DotDims S128x64x256 S128x64x256 S128x64x64 := dot_S128x64x256_S128x64x256_S128x64x64_2_2_1_1_0_0

/-- The body's payload at an index: the sum over the contracted axis of the two factors (the narrowing is the identity on
    extended reals, the accumulator is the zero splat). -/
theorem pay_apply (x0 : Vec Ideal S128x64x256 .f32) (y : S128x64x64.Idx) :
    k0_pay1 x0 y = ∑ k : blockDims.contr.Idx, x0 (blockDims.lhsIdx y k) * x0 (blockDims.rhsIdx y k) := by
  unfold k0_pay1
  exact Ideal.matmul_constant_zero_apply _ _ _ _ y

/-- A block of matrices that is the stretch of the batch starting at matrix `s` has, as its products, the same stretch of
    the Gram array: entry (p, i, j) of the block's is entry (s + p, i, j) of the array's. -/
theorem pay_eq_gram (X : FVec Ideal SX .f32) (x0 : Vec Ideal S128x64x256 .f32) (s : Nat)
    (hx : ∀ (z : S128x64x256.Idx) (Z : SX.Idx), (Z 0).val = s + (z 0).val → (Z 1).val = (z 1).val → (Z 2).val = (z 2).val →
      x0 z = X Z)
    (y : S128x64x64.Idx) (J : SG.Idx) (h0 : (J 0).val = s + (y 0).val) (h1 : (J 1).val = (y 1).val) (h2 : (J 2).val = (y 2).val) :
    k0_pay1 x0 y = gramSpec gramDims X J := by
  rw [pay_apply]
  unfold gramSpec
  refine Finset.sum_congr rfl fun k _ => ?_
  exact congrArg₂ (· * ·) (hx (blockDims.lhsIdx y k) (gramDims.lhsIdx J k) h0 h1 rfl)
    (hx (blockDims.rhsIdx y k) (gramDims.rhsIdx J k) h0 h2 rfl)

theorem zeros3 : (![0, 0, 0] : Fin 3 → Nat) = fun _ => 0 := funext fun a => by fin_cases a <;> rfl

/-- The printed index maps, decided over the grid: at point t both windows sit at block t of the batch axis and at
    block 0 of the two matrix axes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

variable (m : (ℓ : Loc nD τ sig) → Buf (Elt Ideal) ℓ)

/-- The input window's block at point t is matrices 128 t … 128 t + 127 of the argument array. -/
theorem in_block_apply (c : Dev nD) (t : Fin cfg0.N) (z : S128x64x256.Idx) (Z : SX.Idx)
    (h0 : (Z 0).val = t.val * 128 + (z 0).val) (h1 : (Z 1).val = (z 1).val) (h2 : (Z 2).val = (z 2).val) :
    (iblk m c 0 t : Vec Ideal S128x64x256 .f32) z = (V m c main_arg0 : SX.Idx → Ideal .f32) Z := by
  obtain ⟨e0, e1, e2, -, -, -⟩ := idx_facts t
  unfold iblk
  rw [View.read_apply]
  show V m c main_arg0 _ = V m c main_arg0 _
  congr 1
  funext a
  apply Fin.ext
  match a with
  | ⟨0, _⟩ => show win0_0.index t (0 : Fin 3) * 128 + 1 * (z 0).val = (Z 0).val; omega
  | ⟨1, _⟩ => show win0_0.index t (1 : Fin 3) * 64 + 1 * (z 1).val = (Z 1).val; omega
  | ⟨2, _⟩ => show win0_0.index t (2 : Fin 3) * 256 + 1 * (z 2).val = (Z 2).val; omega

/-- What point t writes back is block t of the Gram array of the argument array as the region finds it. -/
theorem flushed_eq (c : Dev nD) (t : Fin cfg0.N) :
    (dats (F := Ideal) m 0 c).flushed 1 t = ((cfg0.win 1).blk t).view.read (Elt Ideal) (gramSpec gramDims (V m c main_arg0)) := by
  show (cfg0.win 1).cut (grid0.coords t) ((dats m 0 c).after 1 t) = _
  rw [after0_1]
  unfold out0_1
  rw [View.canon_unit_zero zeros3]
  simp only [View.ld_unit_zero (S := S128x64x256) zeros3]
  obtain ⟨-, -, -, e0, e1, e2⟩ := idx_facts t
  funext y
  show k0_pay1 (iblk m c 0 t) ((cfg0.win 1).xinj (grid0.coords t) y) = gramSpec gramDims (V m c main_arg0) (((cfg0.win 1).blk t).view.emb y)
  refine pay_eq_gram (V m c main_arg0) (iblk m c 0 t) (t.val * 128) (fun z Z h0 h1 h2 => in_block_apply m c t z Z h0 h1 h2) _ _ ?_ ?_ ?_
  · show win0_1.index t (0 : Fin 3) * 128 + 1 * (y 0).val = t.val * 128 + (y 0).val; omega
  · show win0_1.index t (1 : Fin 3) * 64 + 1 * (y 1).val = (y 1).val; omega
  · show win0_1.index t (2 : Fin 3) * 64 + 1 * (y 2).val = (y 2).val; omega

/-- An index of the output array is in point t's block iff each coordinate is in the block's range on its axis. -/
theorem mem_out_block (t : Fin cfg0.N) (i : S4096x64x64.Idx) :
    i ∈ ((cfg0.win 1).blk t).view.set ↔ ∀ a : Fin 3, win0_1.index t a * S128x64x64.size a ≤ (i a).val
      ∧ (i a).val < win0_1.index t a * S128x64x64.size a + S128x64x64.size a := by
  show i ∈ ((View.whole main_v0).slice (win0_1.rect t)).set ↔ _
  rw [View.set_slice_whole, Rect.mem_set_unit]
  exact Iff.rfl

/-- The 32 blocks tile the output array: matrix b of the batch is in the block of point b / 128. -/
theorem cover (i : S4096x64x64.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  have hi2 : (i 2).val < 64 := (i 2).isLt
  have hN : cfg0.N = 32 := N_0
  let t : Fin cfg0.N := ⟨(i 0).val / 128, by omega⟩
  have ht : t.val = (i 0).val / 128 := rfl
  obtain ⟨-, -, -, e0, e1, e2⟩ := idx_facts t
  refine ⟨t, flush0_1 t, ?_⟩
  rw [mem_out_block]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- After the region the output array is the Gram array of the argument array as the region finds it. -/
theorem final (c : Dev nD) :
    (dats (F := Ideal) m 0 c).arrAt 1 cfg0.N = gramSpec gramDims (V m c main_arg0) :=
  (dats (F := Ideal) m 0 c).arrAt_eq_of_cover 1 (gramSpec gramDims (V m c main_arg0)) (fun t _ => flushed_eq m c t) cover

end Cert.TriuGram.KV

end
-- ==== Proof.KernelValue.lean ====
/-
  What the kernel's program computes.  The region tiles the batch axis in 32 blocks of 128 matrices; at a point t the body
  multiplies each matrix of the block by its own transpose (the narrowing to bf16 is the identity on extended reals, the
  accumulator is zero), so block t of the output array is block t of the Gram array; the blocks tile it.  After the region
  the program selects the 2016 pairs through its two literal index columns.
-/
import proofs.«117476_j32238024524281_1_alg».proof.Proof.Gen.KernelIdeal.Frame
import proofs.«117476_j32238024524281_1_alg».proof.Proof.Spec
import proofs.«117476_j32238024524281_1_alg».proof.Proof.Tables
import proofs.«117476_j32238024524281_1_alg».proof.Proof.KernelBlocks
import Idealize.ShloMosaic.Lib.Pipeline.Value
import Idealize.ShloMosaic.Lib.StableHlo.Run
import Idealize.ShloMosaic.PureOps.Ideal.Laws

noncomputable section

namespace Cert.TriuGram.KV

open Idealize.ShloMosaic Idealize.ShloMosaic.TcCoe Idealize.SL.Sem
open Cert.KernelIdeal Cert.KernelIdeal.Gen Cert.KernelIdeal.Facts₀

/-- The first literal index column, as the region and the lines after it find it: the program's first constant. -/
private theorem V0_main_c (m : (ℓ : Loc nD τ sig) → Buf (Elt Ideal) ℓ) (c : Dev nD) :
    (V0 m c (Proc.devRef .tc main_c) : IVec SP 32) = lit0v := by
  show StableHlo.after hostOps0 (fun b => m (c, b)) (Proc.devRef .tc main_c) = _
  after_results
  rfl

/-- The second literal index column: the program's second constant. -/
private theorem V0_main_c_0 (m : (ℓ : Loc nD τ sig) → Buf (Elt Ideal) ℓ) (c : Dev nD) :
    (V0 m c (Proc.devRef .tc main_c_0) : IVec SP 32) = lit1v := by
  show StableHlo.after hostOps0 (fun b => m (c, b)) (Proc.devRef .tc main_c_0) = _
  after_results
  rfl

/-- What the lines after the region leave in the result buffer.  They read three buffers: the region's output array, which
    holds the Gram array of the argument, and the two literal columns, which the region does not touch.  Each column is
    wrapped by the extent 64 where negative, the two are paired, and the gather selects through the pairs: the selection. -/
private theorem tail_eq (m : (ℓ : Loc nD τ sig) → Buf (Elt Ideal) ℓ) (c : Dev nD) :
    Pipeline.afterTail₀ cfgs (dats (F := Ideal) m) 0 (V0 m) [hostOps1] c main_v14
      = pick (F := Ideal) gather_S4096x64x64_S2016x2_S4096x2016_0_12_n_n_12_1_409611 Facts₀.bcast_S_S2016 Facts₀.bcast_S2016_S2016x1_0
              Facts₀.concatenates_S2016x1_S2016x1_S2016x2_d1
              (gramSpec gramDims (m ((c.tc : Thread nD τ).loc main_arg0))) lit0v lit1v := by
  -- the output array after the region is the Gram array of the argument, which no earlier line wrote
  have e0 : (Pipeline.withArrays (cfgs 0).spec c (V0 m c) (fun w => (dats m 0 c).arrAt w (cfgs 0).N)
      (Proc.devRef .tc main_v0) : FVec Ideal SG .f32) = gramSpec gramDims (m ((c.tc : Thread nD τ).loc main_arg0)) :=
    (Pipeline.withArrays_arr spec0 launch0.win.arr_inj c _ _ 1).trans
      ((final m c).trans (congrArg (gramSpec gramDims) (V_main_arg0 m c)))
  -- the two columns are no array of the region: they are as the region found them
  have ec : (Pipeline.withArrays (cfgs 0).spec c (V0 m c) (fun w => (dats m 0 c).arrAt w (cfgs 0).N)
      (Proc.devRef .tc main_c) : IVec SP 32) = lit0v :=
    (Pipeline.withArrays_of_ne spec0 c _ _ main_c (by decide)).trans (V0_main_c m c)
  have ec0 : (Pipeline.withArrays (cfgs 0).spec c (V0 m c) (fun w => (dats m 0 c).arrAt w (cfgs 0).N)
      (Proc.devRef .tc main_c_0) : IVec SP 32) = lit1v :=
    (Pipeline.withArrays_of_ne spec0 c _ _ main_c_0 (by decide)).trans (V0_main_c_0 m c)
  unfold Pipeline.afterTail₀
  show StableHlo.after hostOps1 _ (Proc.devRef .tc main_v14) = _
  after_results
  rw [e0, ec, ec0]
  unfold pick wrapIdx
  rfl

/-- Every weakly fair execution of the idealized kernel program ends with its result at the selection, through the literal
    index columns, of the Gram array of its argument, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
          = pick (F := Ideal) gather_S4096x64x64_S2016x2_S4096x2016_0_12_n_n_12_1_409611 Facts₀.bcast_S_S2016 Facts₀.bcast_S2016_S2016x1_0
              Facts₀.concatenates_S2016x1_S2016x1_S2016x2_d1
              (gramSpec gramDims (m ((c.tc : Thread nD τ).loc main_arg0))) lit0v lit1v
        ∧ r.2.mem ((c.tc : Thread nD τ).loc main_arg0) = m ((c.tc : Thread nD τ).loc main_arg0)) := by
  -- the result buffer is no array of the region and is unscoped: it holds what the later lines leave there; the
  -- argument array is an input of the region, kept by it and written by no line
  exact (θ_run defs _ _).mono (fun r h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c)))⟩) (run_main m ρ)

end Cert.TriuGram.KV

end
-- ==== Proof.RefIndex.lean ====
/-
  The reference's index table, as closed terms.  The reference does not carry the pairs (i, j), i < j, as literals: it computes
  them.  It builds the 64 × 64 mask "strictly above the diagonal" (a float select compared against zero), flattens it to 4096
  words of 0 / 1, takes its running count c, counts for every k < 2016 how many flat positions have c = k (a scatter-add of
  ones), takes the running count s of those counts, and splits s into its quotient and remainder by 64: rows = (s / 64) mod 64,
  cols = s mod 64.  Each stage below is one definition, in the order the program computes them.
-/
import proofs.«117476_j32238024524281_1_alg».proof.ReferenceIdeal
import proofs.«117476_j32238024524281_1_alg».proof.Proof.Gen.ReferenceIdeal
import Idealize.ShloMosaic.PureOps.Ideal

noncomputable section

namespace Cert.TriuGram.RefIdx

open Idealize.ShloMosaic Cert.ReferenceIdeal Cert.ReferenceIdeal.Facts₀

variable [Cert.ReferenceIdeal.Facts]

/-- 1.0 above the diagonal, 0.0 on and below it. -/
def triF : FVec Ideal S64x64 .f32 :=
  select (cmpi .sge (addi (iotaInDim S64x64 32 0) (broadcastInDim S64x64 ![] bcast_S_S64x64 (constantI S_ 32 0#32))) (iotaInDim S64x64 32 1))
    (broadcastInDim S64x64 ![] bcast_S_S64x64 (constant (F := Ideal) S_ .f32 0x00000000#32))
    (broadcastInDim S64x64 ![] bcast_S_S64x64 (constant (F := Ideal) S_ .f32 0x3F800000#32))

/-- The mask as bits: the float differs from zero. -/
def maskB : IVec S64x64 1 :=
  cmpf (F := Ideal) .une triF (broadcastInDim S64x64 ![] bcast_S_S64x64 (constant (F := Ideal) S_ .f32 0x00000000#32))

/-- The mask flattened, as 32-bit words 0 / 1. -/
def mask32 : IVec S4096 32 := extui 32 (shapeCast S4096 maskB shapeCasts_S64x64_S4096) natLt_1_32

/-- The running count of the mask. -/
def csum : IVec S4096 32 :=
  Host.reduceWindow IntOp.addi ![4096] ![1] ![4095] ![0] mask32 (broadcastInDim S_ ![] bcast_S_S_ (constantI S_ 32 0#32))
    reduceWindows_S4096_S4096_w4096s1p4095_0 h_S_

/-- Clipped below at zero, then wrapped by 2016 where negative (it never is). -/
def cidx : IVec S4096 32 :=
  let v7 : IVec S4096 32 := maxsi (broadcastInDim S4096 ![] bcast_S_S4096 (id (constantI S_ 32 0#32))) csum
  select (cmpi .slt v7 (broadcastInDim S4096 ![] bcast_S_S4096 (constantI S_ 32 0#32)))
    (addi v7 (broadcastInDim S4096 ![] bcast_S_S4096 (constantI S_ 32 2016#32))) v7

/-- How many flat positions have running count k, for k < 2016. -/
def counts : IVec S2016 32 :=
  Host.scatter scatter_S2016_S4096x1_S4096_n_0_0_1 IntOp.addi
    (broadcastInDim S2016 ![] bcast_S_S2016 (constantI S_ 32 0#32))
    (broadcastInDim S4096x1 ![0] bcast_S4096_S4096x1_0 cidx)
    (broadcastInDim S4096 ![] bcast_S_S4096 (constantI S_ 32 1#32))

/-- The running count of the counts: the flat position of the k-th pair. -/
def flatPos : IVec S2016 32 :=
  Host.reduceWindow IntOp.addi ![2016] ![1] ![2015] ![0] counts (broadcastInDim S_ ![] bcast_S_S_ (constantI S_ 32 0#32))
    reduceWindows_S2016_S2016_w2016s1p2015_0 h_S_

/-- jnp's floor division of a vector by a scalar: the truncated quotient, less one where the signs differ and the
    remainder is not zero. -/
def floorDiv (a : IVec S2016 32) (b : IVec S_ 32) : IVec S2016 32 :=
  let v1 : IVec S2016 32 := Host.divsi a (broadcastInDim S2016 ![] bcast_S_S2016 b)
  let v5 : IVec S2016 1 := cmpi .ne (signi a) (broadcastInDim S2016 ![] bcast_S_S2016 (signi b))
  let v7 : IVec S2016 32 := Host.remsi a (broadcastInDim S2016 ![] bcast_S_S2016 b)
  let v9 : IVec S2016 1 := cmpi .ne v7 (broadcastInDim S2016 ![] bcast_S_S2016 (constantI S_ 32 0#32))
  select (andi v5 v9) (subi v1 (broadcastInDim S2016 ![] bcast_S_S2016 (constantI S_ 32 1#32))) v1

/-- jnp's remainder of a vector by a scalar: the truncated remainder, plus the divisor where its sign differs from the
    divisor's and it is not zero (a zero divisor replaced by one). -/
def pyMod (a : IVec S2016 32) (b : IVec S_ 32) : IVec S2016 32 :=
  let v0 : IVec S_ 32 := id b
  let v2 : IVec S_ 32 := select (cmpi .eq v0 (constantI S_ 32 0#32)) (constantI S_ 32 1#32) v0
  let v4 : IVec S2016 32 := Host.remsi a (broadcastInDim S2016 ![] bcast_S_S2016 v2)
  let v6 : IVec S2016 1 := cmpi .ne v4 (broadcastInDim S2016 ![] bcast_S_S2016 (constantI S_ 32 0#32))
  let v8 : IVec S2016 1 := cmpi .slt v4 (broadcastInDim S2016 ![] bcast_S_S2016 (constantI S_ 32 0#32))
  let v10 : IVec S2016 1 := broadcastInDim S2016 ![] bcast_S_S2016 (cmpi .slt v2 (constantI S_ 32 0#32))
  let v12 : IVec S2016 1 := andi (cmpi .ne v8 v10) v6
  select v12 (addi v4 (broadcastInDim S2016 ![] bcast_S_S2016 v2)) v4

/-- The pairs' first coordinates: (flat position / 64) mod 64. -/
def rows : IVec S2016 32 := pyMod (floorDiv flatPos (constantI S_ 32 64#32)) (constantI S_ 32 64#32)

/-- The pairs' second coordinates: (flat position / 1) mod 64. -/
def cols : IVec S2016 32 := pyMod (floorDiv flatPos (constantI S_ 32 1#32)) (constantI S_ 32 64#32)

end Cert.TriuGram.RefIdx

end
-- ==== Proof.RefOps.lean ====
/-
  The reference's program as one straight line of host operations.  The program calls eight helper functions (the
  upper-triangle selection, two running counts, a clip, two floor divisions, two remainders); a call executes the callee's
  body on the operands, so the line lists each callee's operations at its call site, over that call's own buffers.  The run
  of the line: every weakly fair execution ends with each buffer at the fold of the operations over the launch contents.
-/
import proofs.«117476_j32238024524281_1_alg».proof.ReferenceIdeal
import proofs.«117476_j32238024524281_1_alg».proof.Proof.Gen.ReferenceIdeal
import Idealize.ShloMosaic.Lib.StableHlo.Run

noncomputable section

namespace Cert.TriuGram.RV

open Idealize.ShloMosaic Idealize.ShloMosaic.TcCoe Idealize.SL.Sem Idealize.ShloMosaic.StableHlo
open Cert.ReferenceIdeal Cert.ReferenceIdeal.Facts₀

variable {F : FTy → Type} [FloatOps F]

/-- The program's 136 operations in order, the calls unfolded: first the batched product of the argument with itself;
    then the index table (the mask above the diagonal, its running count, the counts per value, their running count, its
    quotient and remainder by 64); last the pairing of the two index columns and the selection. -/
abbrev ops : List (HloOp τ sig (Elt F)) :=
  [ binary main_arg0 main_arg0 main_v0 ((fun l r => Host.dotGeneral dot_S4096x64x256_S4096x64x256_S4096x64x64_2_2_1_1_0_0 none l r) : (⟨S4096x64x256, .f32⟩ : BufTy).Contents (Elt F) → (⟨S4096x64x256, .f32⟩ : BufTy).Contents (Elt F) → (⟨S4096x64x64, .f32⟩ : BufTy).Contents (Elt F)),
    -- the constant one, spread over the 64 × 64 square
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    -- the upper-triangle selection of that square: row index (plus zero) against column index, zero where row ≥ column
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    -- the mask as bits: different from zero
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    -- flattened to 4096 words, and its running count
    TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    -- the table of zeros the counts are added into
    nullary main_c (constantI S_ 32 0#32),
    unary main_c main_v6 (broadcastInDim S2016 ![] bcast_S_S2016 : (⟨S_, .i32⟩ : BufTy).Contents (Elt F) → (⟨S2016, .i32⟩ : BufTy).Contents (Elt F)),
    -- the running count clipped below at zero
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    -- wrapped by 2016 where negative, as a column of scatter indices, with the column of ones
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    -- the counts: how many flat positions have each running count
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    -- the running count of the counts
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_),
    -- its floor quotient by 64
    nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select,
    -- that quotient's remainder by 64: the pairs' first coordinates
    nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select,
    -- the running count's floor quotient by 1
    nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select,
    -- its remainder by 64: the pairs' second coordinates
    nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select,
    -- both coordinates wrapped by 64 where negative
    nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    -- paired as index vectors, and the selection
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

/-- The program is that line: each helper's definition unfolded at its call and each call's record at its fields, both
    sides are one chain of operation steps once the sequencing is reassociated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

/-- The signature scopes no buffer and no semaphore of the TensorCore: the program is of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-- For any float values, from any memory with zero counters: every weakly fair execution of the program on the TensorCore
    terminates, and every final state has each TensorCore buffer at the fold of the 136 operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.TriuGram.RV

end
-- ==== Proof.RefRun.lean ====
/-
  What the reference's program computes.  It is a straight line of host operations: one batched product of the argument
  with itself (the Gram array), the computation of the index table (the stages of RefIndex), and the selection.
-/
import proofs.«117476_j32238024524281_1_alg».proof.ReferenceIdeal
import proofs.«117476_j32238024524281_1_alg».proof.Proof.Gen.ReferenceIdeal
import proofs.«117476_j32238024524281_1_alg».proof.Proof.Spec
import proofs.«117476_j32238024524281_1_alg».proof.Proof.RefIndex
import proofs.«117476_j32238024524281_1_alg».proof.Proof.RefOps
import Idealize.ShloMosaic.Lib.StableHlo.Run

noncomputable section

namespace Cert.TriuGram.RV

open Idealize.ShloMosaic Idealize.ShloMosaic.TcCoe Idealize.SL.Sem Idealize.ShloMosaic.StableHlo
open Cert.ReferenceIdeal Cert.ReferenceIdeal.Facts₀

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The line in five stretches -/

section Stretches
variable {F : FTy → Type} [FloatOps F]

/-- The product of the argument with itself, and the mask above the diagonal as bits. -/
abbrev opsA : List (HloOp τ sig (Elt F)) :=
  [ binary main_arg0 main_arg0 main_v0 ((fun l r => Host.dotGeneral dot_S4096x64x256_S4096x64x256_S4096x64x64_2_2_1_1_0_0 none l r) : (⟨S4096x64x256, .f32⟩ : BufTy).Contents (Elt F) → (⟨S4096x64x256, .f32⟩ : BufTy).Contents (Elt F) → (⟨S4096x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)) ]

/-- The mask flattened, its running count, the counts per value and their running count. -/
abbrev opsB : List (HloOp τ sig (Elt F)) :=
  [ TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

/-- The floor quotient by 64 and its remainder by 64. -/
abbrev opsC : List (HloOp τ sig (Elt F)) :=
  [ nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select,
    nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select ]

/-- The floor quotient by 1 and its remainder by 64. -/
abbrev opsD : List (HloOp τ sig (Elt F)) :=
  [ nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select,
    nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select ]

/-- The two wraps, the pairing of the index columns and the selection. -/
abbrev opsE : List (HloOp τ sig (Elt F)) :=
  [ nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

theorem ops_split : (ops (F := F)) = opsA ++ (opsB ++ (opsC ++ (opsD ++ opsE))) := rfl

end Stretches

/-! ## What each stretch computes, from any contents, and what it leaves

Each stretch is run from arbitrary contents `W`: its result buffer is the stage's function of the buffers it reads, and the
buffers a later stretch still reads are left as they were.  Inside a helper function the operations carry their values
through casts along the buffers' types; those are the identity and are rewritten away first. -/

/-- A cast along an equation between a type and itself is the identity (as a propositional equation: rewriting with
    it goes by congruence). -/
theorem cast_eq' {α : Sort _} (h : α = α) (a : α) : cast h a = a := eq_of_heq (cast_heq h a)

set_option maxRecDepth 8192 in
theorem A_gram (W : Valuation τ sig (Elt Ideal)) :
    after (opsA (F := Ideal)) W (main_v0 : DevRef τ sig)
      = (Host.dotGeneral (F := Ideal) (φ₁ := .f32) (φ₂ := .f32) dot_S4096x64x256_S4096x64x256_S4096x64x64_2_2_1_1_0_0 none
            (W (main_arg0 : DevRef τ sig)) (W (main_arg0 : DevRef τ sig))) := by
  after_results_simp

set_option maxRecDepth 8192 in
theorem A_mask (W : Valuation τ sig (Elt Ideal)) :
    after (opsA (F := Ideal)) W (main_v4 : DevRef τ sig) = RefIdx.maskB := by
  after_results_simp
  simp only [cast_eq']
  rfl

set_option maxRecDepth 8192 in
theorem A_arg0 (W : Valuation τ sig (Elt Ideal)) :
    after (opsA (F := Ideal)) W (main_arg0 : DevRef τ sig) = W (main_arg0 : DevRef τ sig) := by
  after_results_simp

set_option maxRecDepth 8192 in
theorem B_flatPos (W : Valuation τ sig (Elt Ideal)) (h : W (main_v4 : DevRef τ sig) = RefIdx.maskB) :
    after (opsB (F := Ideal)) W (main_v16 : DevRef τ sig) = RefIdx.flatPos := by
  after_results_simp
  simp only [cast_eq']
  rw [h]
  delta RefIdx.flatPos RefIdx.counts RefIdx.cidx RefIdx.csum RefIdx.mask32
  -- both sides are now the same composition over the mask, the two running counts and the scatter: as unknowns
  generalize RefIdx.maskB = mk
  generalize @Host.reduceWindow S2016 (BitVec 32) S2016 S_ IntOp.addi ![2016] ![1] ![2015] ![0] = f3
  generalize Host.scatter scatter_S2016_S4096x1_S4096_n_0_0_1 (IntOp.addi (w := 32)) = f2
  generalize @Host.reduceWindow S4096 (BitVec 32) S4096 S_ IntOp.addi ![4096] ![1] ![4095] ![0] = f1
  rfl

set_option maxRecDepth 8192 in
theorem B_arg0 (W : Valuation τ sig (Elt Ideal)) :
    after (opsB (F := Ideal)) W (main_arg0 : DevRef τ sig) = W (main_arg0 : DevRef τ sig) := by
  after_results_simp

set_option maxRecDepth 8192 in
theorem B_v0 (W : Valuation τ sig (Elt Ideal)) :
    after (opsB (F := Ideal)) W (main_v0 : DevRef τ sig) = W (main_v0 : DevRef τ sig) := by
  after_results_simp

set_option maxRecDepth 8192 in
theorem C_rows (W : Valuation τ sig (Elt Ideal)) :
    after (opsC (F := Ideal)) W (main_v18 : DevRef τ sig)
      = RefIdx.pyMod (RefIdx.floorDiv (W (main_v16 : DevRef τ sig)) (constantI S_ 32 64#32)) (constantI S_ 32 64#32) := by
  after_results_simp
  simp only [cast_eq']
  rfl

set_option maxRecDepth 8192 in
theorem C_arg0 (W : Valuation τ sig (Elt Ideal)) :
    after (opsC (F := Ideal)) W (main_arg0 : DevRef τ sig) = W (main_arg0 : DevRef τ sig) := by
  after_results_simp

set_option maxRecDepth 8192 in
theorem C_v0 (W : Valuation τ sig (Elt Ideal)) :
    after (opsC (F := Ideal)) W (main_v0 : DevRef τ sig) = W (main_v0 : DevRef τ sig) := by
  after_results_simp

set_option maxRecDepth 8192 in
theorem C_v16 (W : Valuation τ sig (Elt Ideal)) :
    after (opsC (F := Ideal)) W (main_v16 : DevRef τ sig) = W (main_v16 : DevRef τ sig) := by
  after_results_simp

set_option maxRecDepth 8192 in
theorem D_cols (W : Valuation τ sig (Elt Ideal)) :
    after (opsD (F := Ideal)) W (main_v20 : DevRef τ sig)
      = RefIdx.pyMod (RefIdx.floorDiv (W (main_v16 : DevRef τ sig)) (constantI S_ 32 1#32)) (constantI S_ 32 64#32) := by
  after_results_simp
  simp only [cast_eq']
  rfl

set_option maxRecDepth 8192 in
theorem D_arg0 (W : Valuation τ sig (Elt Ideal)) :
    after (opsD (F := Ideal)) W (main_arg0 : DevRef τ sig) = W (main_arg0 : DevRef τ sig) := by
  after_results_simp

set_option maxRecDepth 8192 in
theorem D_v0 (W : Valuation τ sig (Elt Ideal)) :
    after (opsD (F := Ideal)) W (main_v0 : DevRef τ sig) = W (main_v0 : DevRef τ sig) := by
  after_results_simp

set_option maxRecDepth 8192 in
theorem D_v18 (W : Valuation τ sig (Elt Ideal)) :
    after (opsD (F := Ideal)) W (main_v18 : DevRef τ sig) = W (main_v18 : DevRef τ sig) := by
  after_results_simp

set_option maxRecDepth 8192 in
theorem E_pick (W : Valuation τ sig (Elt Ideal)) :
    after (opsE (F := Ideal)) W (main_v34 : DevRef τ sig)
      = pick (F := Ideal) gather_S4096x64x64_S2016x2_S4096x2016_0_12_n_n_12_1_409611 bcast_S_S2016 bcast_S2016_S2016x1_0
          concatenates_S2016x1_S2016x1_S2016x2_d1
          (W (main_v0 : DevRef τ sig)) (W (main_v18 : DevRef τ sig)) (W (main_v20 : DevRef τ sig)) := by
  after_results_simp
  rfl

set_option maxRecDepth 8192 in
theorem E_arg0 (W : Valuation τ sig (Elt Ideal)) :
    after (opsE (F := Ideal)) W (main_arg0 : DevRef τ sig) = W (main_arg0 : DevRef τ sig) := by
  after_results_simp

/-! ## The whole line -/

set_option maxRecDepth 8192 in
/-- The result buffer after the line: the selection, through the computed index columns, of the product. -/
theorem out_eq (V : Valuation τ sig (Elt Ideal)) :
    after (ops (F := Ideal)) V (main_v34 : DevRef τ sig)
      = pick (F := Ideal) gather_S4096x64x64_S2016x2_S4096x2016_0_12_n_n_12_1_409611 bcast_S_S2016 bcast_S2016_S2016x1_0
          concatenates_S2016x1_S2016x1_S2016x2_d1
          (Host.dotGeneral (F := Ideal) (φ₁ := .f32) (φ₂ := .f32) dot_S4096x64x256_S4096x64x256_S4096x64x64_2_2_1_1_0_0 none
            (V (main_arg0 : DevRef τ sig)) (V (main_arg0 : DevRef τ sig)))
          RefIdx.rows RefIdx.cols := by
  rw [ops_split (F := Ideal), after_append, after_append, after_append, after_append, E_pick,
    D_v0, C_v0, B_v0, A_gram, D_v18, C_rows, D_cols, C_v16, B_flatPos _ (A_mask V)]
  rfl

/-- The argument is left as it was. -/
theorem arg0_eq (V : Valuation τ sig (Elt Ideal)) :
    after (ops (F := Ideal)) V (main_arg0 : DevRef τ sig) = V (main_arg0 : DevRef τ sig) := by
  rw [ops_split (F := Ideal), after_append, after_append, after_append, after_append, E_arg0, D_arg0, C_arg0, B_arg0, A_arg0]

/-- Every weakly fair execution of the idealized reference ends with its result at the selection, through the computed
    index columns, of the batched product of its argument with itself, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
          = pick (F := Ideal) gather_S4096x64x64_S2016x2_S4096x2016_0_12_n_n_12_1_409611 bcast_S_S2016 bcast_S2016_S2016x1_0
              concatenates_S2016x1_S2016x1_S2016x2_d1
              (Host.dotGeneral (F := Ideal) (φ₁ := .f32) (φ₂ := .f32) dot_S4096x64x256_S4096x64x256_S4096x64x64_2_2_1_1_0_0 none
                (m ((c.tc : Thread nD τ).loc main_arg0) : FVec Ideal S4096x64x256 .f32)
                (m ((c.tc : Thread nD τ).loc main_arg0) : FVec Ideal S4096x64x256 .f32))
              RefIdx.rows RefIdx.cols
        ∧ r.2.mem ((c.tc : Thread nD τ).loc main_arg0) = m ((c.tc : Thread nD τ).loc main_arg0)) :=
  (θ_run (defs (F := Ideal)) _ _).mono
    (fun _ h c => ⟨(h c main_v34).trans (out_eq _), (h c main_arg0).trans (arg0_eq _)⟩)
    (run_main (F := Ideal) m ρ)

end Cert.TriuGram.RV

end
-- ==== Proof.LibCumsum.lean ====
/-
  A running sum as a padded window sum.  jnp.cumsum of a vector of length n is printed as a window reduction: window n,
  stride 1, n − 1 words of padding below and none above, the padding holding the sum's identity.  Read at position j
  that is the sum of the entries at positions q ≤ j.  Stated for 32-bit words that are the images of natural numbers, so
  that the result is the image of the natural sum.
-/
import Idealize.ShloMosaic.PureOps
import Idealize.ShloMosaic.Lib.ValueIdx

namespace Cert.TriuGram

open Idealize.ShloMosaic Idealize.ShloMosaic.ValueIdx

/-- A left fold adding the images of naturals, from the image of zero, is the image of their sum. -/
private theorem foldl_add_ofNat (m : ℕ) (g : Fin m → ℕ) :
    (List.finRange m).foldl (fun r k => r + BitVec.ofNat 32 (g k)) 0#32 = BitVec.ofNat 32 (∑ k, g k) := by
  induction m with
  | zero => simp
  | succ m ih =>
    rw [List.finRange_succ_last, List.foldl_append, List.foldl_map, ih (fun k => g k.castSucc)]
    simp [Fin.sum_univ_castSucc, BitVec.ofNat_add]

/-- The shifted sum: the terms at window positions k with lo ≤ j + k are f at j + k − lo, which run over q ≤ j. -/
private theorem sum_shift {n lo : ℕ} (hlo : lo + 1 = n) (f : Fin n → ℕ) (j : Fin n) :
    (∑ k : Fin n, if lo ≤ j.val + k.val then f ⟨j.val + k.val - lo, by omega⟩ else 0)
      = ∑ q : Fin n with q.val ≤ j.val, f q := by
  rw [← Finset.sum_filter]
  refine Finset.sum_bij (fun k _ => ⟨j.val + k.val - lo, by omega⟩) ?_ ?_ ?_ ?_
  · intro k hk
    simp only [Finset.mem_filter, Finset.mem_univ, true_and] at hk ⊢
    omega
  · intro a ha b hb hab
    simp only [Finset.mem_filter, Finset.mem_univ, true_and] at ha hb
    have := Fin.mk.inj hab
    exact Fin.ext (by omega)
  · intro q hq
    simp only [Finset.mem_filter, Finset.mem_univ, true_and] at hq
    refine ⟨⟨q.val + lo - j.val, by omega⟩, ?_, ?_⟩
    · simp only [Finset.mem_filter, Finset.mem_univ, true_and]; omega
    · exact Fin.ext (by simp only; omega)
  · intro k hk; rfl

/-- The coordinate of a flat position in a rank-1 shape is the position itself. -/
private theorem rowMajor_symm_one_val {d : Fin 1 → ℕ} (k : Fin (⟨1, d⟩ : Shape).numel) :
    (((⟨1, d⟩ : Shape).rowMajor.symm k) 0).val = k.val := by
  have h := Shape.rowMajor_val_one ((⟨1, d⟩ : Shape).rowMajor.symm k)
  rw [Equiv.apply_symm_apply] at h
  exact h.symm

/-- A vector shape of length n has n elements. -/
private theorem numel_one (n : ℕ) : (⟨1, ![n]⟩ : Shape).numel = n := by
  simp [Shape.numel]

/-- A left fold whose step adds the image of a natural is the image of the sum. -/
private theorem foldl_eq_ofNat_sum {m : ℕ} (F : BitVec 32 → Fin m → BitVec 32) (g : Fin m → ℕ)
    (hF : ∀ r k, F r k = r + BitVec.ofNat 32 (g k)) :
    (List.finRange m).foldl F 0#32 = BitVec.ofNat 32 (∑ k, g k) := by
  have e : F = fun r k => r + BitVec.ofNat 32 (g k) := by funext r k; exact hF r k
  rw [e]; exact foldl_add_ofNat m g

/-- The window sum with window n and lo = n − 1 words of low padding, read at j, is the sum over q ≤ j. -/
theorem reduceWindow_cumsum {n lo : ℕ} (hlo : lo + 1 = n) (x : IVec ⟨1, ![n]⟩ 32) (f : Fin n → ℕ)
    (hx : ∀ q : Fin n, x (ix1 q) = BitVec.ofNat 32 (f q))
    (init : IVec ⟨0, ![]⟩ 32) (hinit : ∀ i, init i = 0#32)
    (h : (⟨1, ![n]⟩ : Shape).ReduceWindows (![n] : Fin 1 → ℕ) ![1] ![lo] ![0] ⟨1, ![n]⟩)
    (hu : 0 < (⟨0, ![]⟩ : Shape).numel) (j : Fin n) :
    Host.reduceWindow IntOp.addi (![n] : Fin 1 → ℕ) ![1] ![lo] ![0] x init h hu (ix1 j)
      = BitVec.ofNat 32 (∑ q : Fin n with q.val ≤ j.val, f q) := by
  -- the sum over q ≤ j, re-indexed by the window position k = q + lo − j
  rw [← sum_shift hlo f j]
  unfold Host.reduceWindow
  simp only [hinit]
  have hN : (⟨1, ![n]⟩ : Shape).numel = n := numel_one n
  refine (foldl_eq_ofNat_sum _ (fun k : Fin (⟨1, ![n]⟩ : Shape).numel =>
    if lo ≤ j.val + k.val then f ⟨j.val + k.val - lo, by have := k.isLt; omega⟩ else 0) ?_).trans ?_
  · -- the step at window position k adds x at j + k − lo when lo ≤ j + k, and the zero of the padding otherwise
    intro r k
    have hk : (((⟨1, ![n]⟩ : Shape).rowMajor.symm k) 0).val = k.val := rowMajor_symm_one_val k
    have hkn : k.val < n := by have := k.isLt; omega
    show r + _ = r + _
    congr 1
    have e0 : ∀ a : Fin 1, (ix1 j (Fin.cast h.1.symm a)).val * (![1] : Fin 1 → ℕ) a
        + ((⟨1, ![n]⟩ : Shape).rowMajor.symm k a).val = j.val + k.val := by
      intro a
      obtain rfl : a = 0 := Subsingleton.elim _ _
      rw [hk]
      show j.val * 1 + k.val = j.val + k.val
      omega
    by_cases hc : lo ≤ j.val + k.val
    · rw [if_pos hc, dif_pos (by
        intro a
        rw [e0 a]
        obtain rfl : a = 0 := Subsingleton.elim _ _
        show lo ≤ j.val + k.val ∧ j.val + k.val - lo < n
        omega), ← hx]
      refine congrArg x (funext fun a => ?_)
      obtain rfl : a = 0 := Subsingleton.elim _ _
      refine Fin.ext ?_
      show (ix1 j (Fin.cast h.1.symm 0)).val * (![1] : Fin 1 → ℕ) 0
        + ((⟨1, ![n]⟩ : Shape).rowMajor.symm k 0).val - lo = j.val + k.val - lo
      rw [e0 0]
    · rw [if_neg hc, dif_neg (by
        intro hall
        have h0 := (hall 0).1
        rw [e0 0] at h0
        exact hc h0)]
  · -- the window's flat positions are the positions below n
    congr 1
    exact Fintype.sum_equiv (finCongr hN) _ _ (fun k => rfl)

end Cert.TriuGram
-- ==== Proof.LibScatterCount.lean ====
/-
  A scatter-add of ones as a count.  Scattering the constant 1, by addition, into a vector of N zeros at the positions a
  vector of n indices names (one index per update, indices outside [0, N) dropped) leaves at position k the number of
  updates whose index is k.  Stated for indices that are the images of natural numbers below 2^31 (so that the signed
  reading of the word is the number itself).
-/
import Idealize.ShloMosaic.PureOps
import Idealize.ShloMosaic.Lib.ValueIdx

namespace Cert.TriuGram

open Idealize.ShloMosaic Idealize.ShloMosaic.ValueIdx

namespace ScatterCount

/-- One step of the scatter's fold: update position `m` replaces the element at its result index by the body applied
    to that element and the update, or is dropped when it has no result index. -/
def scatStep {s si u : Shape} {α : Type} {w : Nat} (d : ScatterDims s si u) (f : α → α → α) (idx : IVec si w)
    (upd : u.Idx → α) (r : s.Idx → α) (m : Fin u.numel) : s.Idx → α :=
  match d.resultIdx? (u.rowMajor.symm m) idx with
  | some i => fun i' => if i' = i then f (r i) (upd (u.rowMajor.symm m)) else r i'
  | none => r

/-- The scatter is the left fold of that step over the update positions. -/
theorem scatter_eq_foldl {s si u : Shape} {α : Type} {w : Nat} (d : ScatterDims s si u) (f : α → α → α)
    (x : s.Idx → α) (idx : IVec si w) (upd : u.Idx → α) :
    Host.scatter d f x idx upd = (List.finRange u.numel).foldl (scatStep d f idx upd) x := rfl

section
variable {N n : ℕ}
    (wf : ScatterDims.WF (⟨1, ![N]⟩ : Shape) ⟨2, ![n, 1]⟩ ⟨1, ![n]⟩ [] [0] [0] 1)

/-- The dimension numbers of `x.at[idx].add(upd)` on a vector: scalar updates, the operand's one axis inserted and
    named by the one component of each index vector. -/
abbrev sd : ScatterDims (⟨1, ![N]⟩ : Shape) ⟨2, ![n, 1]⟩ ⟨1, ![n]⟩ :=
  { updateWindowDims := [], insertedWindowDims := [0], scatterDimsToOperandDims := [0], indexVectorDim := 1, wf := wf }

/-- There is no window axis: the window coordinate is zero. -/
theorem sd_window (j : (⟨1, ![n]⟩ : Shape).Idx) (a : Fin 1) : (sd wf).window j a = 0 := by
  unfold ScatterDims.window
  rw [dif_neg]
  simp [ScatterDims.sKept, Shape.kept]
  exact Subsingleton.elim _ _

/-- Update `p` reads its start index at row `p` of the index array. -/
theorem sd_siIdx (p : Fin n) (c : Fin 1) : (sd wf).siIdx (ix1 p) c = ix2 p 0 := by
  funext b
  match b with
  | ⟨0, _⟩ =>
    simp [ScatterDims.siIdx, ScatterDims.siCoord]
    have hX : ∀ X : Fin 1, (ix1 p X).val = p.val := fun X => match X with | ⟨0, _⟩ => rfl
    exact Fin.ext (hX _)
  | ⟨1, _⟩ =>
    simp [ScatterDims.siIdx]
    rfl

/-- The start on the operand's axis is that word, read signed. -/
theorem sd_start (idx : IVec ⟨2, ![n, 1]⟩ 32) (p : Fin n) (a : Fin 1) :
    (sd wf).start (ix1 p) idx a = (idx (ix2 p 0)).toInt := by
  unfold ScatterDims.start
  rw [dif_pos (by simp; exact Subsingleton.elim _ _)]
  rw [sd_siIdx]

/-- A natural number below 2^31, as a 32-bit word read signed, is itself. -/
theorem toInt_ofNat_small (m : ℕ) (hm : m < 2 ^ 31) : (BitVec.ofNat 32 m).toInt = (m : Int) := by
  rw [BitVec.toInt_eq_toNat_of_lt, BitVec.toNat_ofNat, Nat.mod_eq_of_lt (by omega)]
  rw [BitVec.toNat_ofNat, Nat.mod_eq_of_lt (by omega)]; omega

/-- The operand's one axis has extent `N`. -/
theorem size_operand (a : Fin 1) : (⟨1, ![N]⟩ : Shape).size a = N := by
  match a with
  | ⟨0, _⟩ => rfl

/-- Update `p` lands at position `g p` when that is below `N` and is dropped otherwise. -/
theorem sd_resultIdx (idx : IVec ⟨2, ![n, 1]⟩ 32) (g : Fin n → ℕ) (hg : ∀ p, g p < 2 ^ 31)
    (hidx : ∀ p : Fin n, idx (ix2 p 0) = BitVec.ofNat 32 (g p)) (p : Fin n) :
    (sd wf).resultIdx? (ix1 p) idx = if h : g p < N then some (ix1 ⟨g p, h⟩) else none := by
  unfold ScatterDims.resultIdx?
  have hs : ∀ a, (sd wf).start (ix1 p) idx a + ((sd wf).window (ix1 p) a : Int) = (g p : Int) := by
    intro a
    rw [sd_start, sd_window, hidx, toInt_ofNat_small _ (hg _)]; simp
  by_cases h : g p < N
  · rw [dif_pos h, dif_pos]
    · congr 1
      funext a
      match a with
      | ⟨0, _⟩ =>
        apply Fin.ext
        show ((sd wf).start (ix1 p) idx _ + ((sd wf).window (ix1 p) _ : Int)).toNat = g p
        rw [hs]; simp
    · intro a
      rw [hs, size_operand]
      omega
  · rw [dif_neg h, dif_neg]
    intro h'
    apply h
    have := (h' 0).2
    rw [hs, size_operand] at this
    omega

/-- Folding the step over any list `l` of update positions adds, at position `k`, the number of positions in `l`
    whose index is `k`: each such update adds 1 there, every other update leaves position `k` as it was. -/
theorem fold_count (idx : IVec ⟨2, ![n, 1]⟩ 32) (g : Fin n → ℕ) (hg : ∀ p, g p < 2 ^ 31)
    (hidx : ∀ p : Fin n, idx (ix2 p 0) = BitVec.ofNat 32 (g p))
    (upd : IVec ⟨1, ![n]⟩ 32) (hupd : ∀ i, upd i = 1#32) (k : Fin N)
    (l : List (Fin (⟨1, ![n]⟩ : Shape).numel)) :
    ∀ (r : IVec ⟨1, ![N]⟩ 32) (c : ℕ), r (ix1 k) = BitVec.ofNat 32 c →
    (l.foldl (scatStep (sd wf) IntOp.addi idx upd) r) (ix1 k)
      = BitVec.ofNat 32 (c + l.countP (fun m => g (((⟨1, ![n]⟩ : Shape).rowMajor.symm m) 0) = k.val)) := by
  induction l with
  | nil => intro r c hr; simpa using hr
  | cons m l ih =>
    intro r c hr
    rw [List.foldl_cons, List.countP_cons]
    unfold scatStep
    obtain ⟨p, hp⟩ : ∃ p : Fin n, (⟨1, ![n]⟩ : Shape).rowMajor.symm m = ix1 p := ⟨_, eq_ix1 _⟩
    rw [hp, sd_resultIdx wf idx g hg hidx p]
    have e1 : ∀ (a b d : ℕ), a + (b + d) = (a + d) + b := by intros; omega
    rw [e1]
    apply ih
    by_cases h : g p < N
    · simp only [dif_pos h]
      by_cases hk : g p = k.val
      · have hk' : k = ⟨g p, h⟩ := Fin.ext hk.symm
        rw [if_pos (by rw [hk']), ← hk', hr, hupd]
        have : g (ix1 p 0) = k.val := hk
        simp [this, IntOp.addi, BitVec.ofNat_add]
      · rw [if_neg]
        · have : ¬ g (ix1 p 0) = k.val := hk
          simp [this, hr]
        · intro e
          apply hk
          have := congrFun e 0
          exact (congrArg Fin.val this).symm
    · simp only [dif_neg h]
      have : ¬ g (ix1 p 0) = k.val := by
        show ¬ g p = k.val
        omega
      simp [this, hr]

/-- Counting along the list of all of `Fin M` is the cardinality of the filtered set. -/
theorem countP_finRange_eq_card (M : ℕ) (P : Fin M → Prop) [DecidablePred P] :
    (List.finRange M).countP (fun m => decide (P m)) = (Finset.univ.filter P).card := by
  rw [Fin.univ_def]
  simp [Finset.filter, Finset.card, List.countP_eq_length_filter]

end

end ScatterCount

open ScatterCount in
/-- Position k of the scatter-add of ones holds the number of updates whose index is k. -/
theorem scatter_add_ones_count {N n : ℕ}
    (wf : ScatterDims.WF (⟨1, ![N]⟩ : Shape) ⟨2, ![n, 1]⟩ ⟨1, ![n]⟩ [] [0] [0] 1)
    (x : IVec ⟨1, ![N]⟩ 32) (hx : ∀ i, x i = 0#32)
    (idx : IVec ⟨2, ![n, 1]⟩ 32) (g : Fin n → ℕ) (hg : ∀ p, g p < 2 ^ 31)
    (hidx : ∀ p : Fin n, idx (ix2 p 0) = BitVec.ofNat 32 (g p))
    (upd : IVec ⟨1, ![n]⟩ 32) (hupd : ∀ i, upd i = 1#32) (k : Fin N) :
    Host.scatter (s := ⟨1, ![N]⟩) (si := ⟨2, ![n, 1]⟩) (u := ⟨1, ![n]⟩)
        { updateWindowDims := [], insertedWindowDims := [0], scatterDimsToOperandDims := [0], indexVectorDim := 1, wf := wf }
        IntOp.addi x idx upd (ix1 k)
      = BitVec.ofNat 32 (Finset.univ.filter fun p : Fin n => g p = k.val).card := by
  -- the fold from the zero vector counts, along all update positions, those whose index is k …
  rw [scatter_eq_foldl]
  refine (fold_count wf idx g hg hidx upd hupd k (List.finRange _) x 0 (hx _)).trans ?_
  rw [Nat.zero_add, countP_finRange_eq_card]
  congr 1
  -- … and the update positions correspond one to one to the updates (row-major position, then the one coordinate).
  let e : Fin (⟨1, ![n]⟩ : Shape).numel ≃ Fin n :=
    (⟨1, ![n]⟩ : Shape).rowMajor.symm.trans
      ⟨fun j => j 0, fun p => ix1 p, fun j => (eq_ix1 j).symm, fun _ => rfl⟩
  refine Finset.card_equiv e ?_
  intro m
  simp only [Finset.mem_filter, Finset.mem_univ, true_and]
  exact Iff.rfl

end Cert.TriuGram
-- ==== Proof.LibTriangle.lean ====
/-
  Counting the pairs above the diagonal of a 64 × 64 matrix through its flat positions.  Position p = 64 · i + j is above
  the diagonal when p / 64 < p mod 64.  Let cnt p be the number of such positions q ≤ p.  For k < 2016 the number of
  positions p < 4096 with cnt p ≤ k is the flat position of the k-th pair (k counted from 0, pairs in row-major order):
  every position before it has count at most k, it and every later position more.  The k-th pair (i, j) is the one with
  i · (127 − i) / 2 + (j − i) = k + 1: the i rows above row i hold 63 + 62 + … + (64 − i) pairs, row i holds j − i up to column j.
-/
import Idealize.ShloMosaic.Lib.ValueIdx

namespace Cert.TriuGram

/-- The running count of the positions above the diagonal, up to and including p. -/
def cntF (p : Fin 4096) : ℕ := ∑ q : Fin 4096 with q.val ≤ p.val, (if q.val / 64 < q.val % 64 then 1 else 0)

/-- The indicator of a position above the diagonal. -/
def tri (q : ℕ) : ℕ := if q / 64 < q % 64 then 1 else 0

/-- The running count over the naturals: the number of positions q ≤ n above the diagonal. -/
def cntN (n : ℕ) : ℕ := ∑ q ∈ Finset.range (n + 1), tri q

/-- The closed form: the rows above row n / 64 hold 63 + 62 + … pairs, the row itself the columns after the diagonal up to n mod 64. -/
def cntC (n : ℕ) : ℕ := (n / 64) * (127 - n / 64) / 2 + (n % 64 - n / 64)

/-- A sum over the q : Fin n with q ≤ m, for m < n, is the sum over the naturals q ≤ m. -/
theorem sum_fin_le (n m : ℕ) (hm : m < n) (g : ℕ → ℕ) :
    (∑ q : Fin n with q.val ≤ m, g q.val) = ∑ q ∈ Finset.range (m + 1), g q := by
  rw [Finset.sum_filter, Fin.sum_univ_eq_sum_range (fun q => if q ≤ m then g q else 0) n, ← Finset.sum_filter]
  congr 1
  ext x
  simp only [Finset.mem_filter, Finset.mem_range]
  omega

theorem cntF_eq_cntN (p : Fin 4096) : cntF p = cntN p.val := by
  unfold cntF cntN
  exact sum_fin_le 4096 p.val p.isLt tri

theorem cntN_succ (n : ℕ) : cntN (n + 1) = cntN n + tri (n + 1) := by
  unfold cntN
  rw [Finset.sum_range_succ]

theorem cntN_mono {m n : ℕ} (h : m ≤ n) : cntN m ≤ cntN n := by
  unfold cntN
  exact Finset.sum_le_sum_of_subset (Finset.range_mono (by omega))

/-- The closed form obeys the recurrence of the running count at every position of the matrix. -/
theorem cntC_succ : ∀ n : Fin 4095, cntC (n.val + 1) = cntC n.val + tri (n.val + 1) := by
  decide +kernel

/-- The running count is the closed form on the positions of the matrix. -/
theorem cntN_eq_cntC (n : ℕ) (hn : n < 4096) : cntN n = cntC n := by
  induction n with
  | zero => decide
  | succ m ih =>
    rw [cntN_succ, ih (by omega)]
    exact (cntC_succ ⟨m, by omega⟩).symm

/-- The running count is monotone. -/
theorem cntF_mono {p q : Fin 4096} (h : p.val ≤ q.val) : cntF p ≤ cntF q := by
  rw [cntF_eq_cntN, cntF_eq_cntN]
  exact cntN_mono h

/-- The closed form at the position of a pair above the diagonal. -/
theorem cntC_pair (i j : ℕ) (hj : j < 64) : cntC (64 * i + j) = i * (127 - i) / 2 + (j - i) := by
  have h1 : (64 * i + j) / 64 = i := by omega
  have h2 : (64 * i + j) % 64 = j := by omega
  unfold cntC
  rw [h1, h2]

/-- The running count at the position of a pair above the diagonal. -/
theorem cntF_pair (i j : ℕ) (hij : i < j) (hj : j < 64) (h : 64 * i + j < 4096) :
    cntF ⟨64 * i + j, h⟩ = i * (127 - i) / 2 + (j - i) := by
  rw [cntF_eq_cntN, cntN_eq_cntC _ h, cntC_pair i j hj]

/-- There are 2016 positions above the diagonal in all. -/
theorem cntF_le (p : Fin 4096) : cntF p ≤ 2016 := by
  rw [cntF_eq_cntN]
  calc cntN p.val ≤ cntN 4095 := cntN_mono (by omega)
    _ = cntC 4095 := cntN_eq_cntC 4095 (by omega)
    _ = 2016 := by decide

/-- Summing, over q ≤ k, the number of positions whose running count is q gives the flat position 64 · i + j of the k-th pair. -/
theorem flatPos_nat (k : Fin 2016) (i j : ℕ) (hij : i < j) (hj : j < 64)
    (hk : i * (127 - i) / 2 + (j - i) = k.val + 1) :
    (∑ q : Fin 2016 with q.val ≤ k.val, (Finset.univ.filter fun p : Fin 4096 => cntF p = q.val).card) = 64 * i + j := by
  have hP : 64 * i + j < 4096 := by omega
  -- the running count at the pair's position, and just before it
  have hcP : cntN (64 * i + j) = k.val + 1 := by
    rw [cntN_eq_cntC _ hP, cntC_pair i j hj, hk]
  have hcP' : cntN (64 * i + j - 1) = k.val := by
    have hpos : 64 * i + j - 1 + 1 = 64 * i + j := by omega
    have hs := cntN_succ (64 * i + j - 1)
    rw [hpos, hcP] at hs
    have ht : tri (64 * i + j) = 1 := by
      unfold tri
      have h1 : (64 * i + j) / 64 = i := by omega
      have h2 : (64 * i + j) % 64 = j := by omega
      rw [h1, h2, if_pos hij]
    omega
  -- the positions of count at most k are those before the pair's
  have hset : (Finset.univ.filter fun p : Fin 4096 => cntF p ≤ k.val)
      = Finset.univ.filter fun p : Fin 4096 => p.val < 64 * i + j := by
    ext p
    simp only [Finset.mem_filter, Finset.mem_univ, true_and]
    rw [cntF_eq_cntN]
    constructor
    · intro hle
      by_contra hge
      have := cntN_mono (show 64 * i + j ≤ p.val by omega)
      omega
    · intro hlt
      have := cntN_mono (show p.val ≤ 64 * i + j - 1 by omega)
      omega
  -- the sum over the counts q ≤ k is the number of positions of count at most k
  rw [sum_fin_le 2016 k.val k.isLt (fun q => (Finset.univ.filter fun p : Fin 4096 => cntF p = q).card)]
  have hfib := Finset.card_eq_sum_card_fiberwise (f := cntF)
    (s := Finset.univ.filter fun p : Fin 4096 => cntF p ≤ k.val) (t := Finset.range (k.val + 1))
    (by
      intro p hp
      simp only [Finset.coe_filter, Finset.mem_univ, true_and, Set.mem_setOf_eq] at hp
      simp only [Finset.coe_range, Set.mem_Iio]
      omega)
  have hsum : (∑ q ∈ Finset.range (k.val + 1), (Finset.univ.filter fun p : Fin 4096 => cntF p = q).card)
      = ∑ q ∈ Finset.range (k.val + 1),
          ((Finset.univ.filter fun p : Fin 4096 => cntF p ≤ k.val).filter fun p => cntF p = q).card := by
    apply Finset.sum_congr rfl
    intro q hq
    congr 1
    ext p
    simp only [Finset.mem_filter, Finset.mem_univ, true_and]
    have := Finset.mem_range.mp hq
    constructor
    · intro h; exact ⟨by omega, h⟩
    · intro h; exact h.2
  rw [hsum, ← hfib, hset]
  -- the positions before 64 · i + j number 64 · i + j
  rw [Fin.card_filter_val_lt]
  omega

end Cert.TriuGram
-- ==== Proof.IntOps.lean ====
/-
  The integer stages of the reference's index table, read at a position, on words that are images of natural numbers below
  2^31 (where the signed reading of a word is the number itself): clipping at zero and wrapping a negative index leave the
  word alone; jnp's floor division and remainder by a positive constant are the natural quotient and remainder.
-/
import proofs.«117476_j32238024524281_1_alg».proof.Proof.RefIndex
import Idealize.ShloMosaic.Lib.ValueIdx

noncomputable section

namespace Cert.TriuGram.RefIdx

open Idealize.ShloMosaic Idealize.ShloMosaic.ValueIdx Cert.ReferenceIdeal Cert.ReferenceIdeal.Facts₀

variable [Cert.ReferenceIdeal.Facts]

/-! Scalar facts on 32-bit words whose unsigned reading is below 2^31. -/

/-- A number below 2^31 is the unsigned reading of its word. -/
private theorem toNat_ofNat_lt (n : ℕ) (hn : n < 2 ^ 31) : (BitVec.ofNat 32 n).toNat = n := by
  rw [BitVec.toNat_ofNat]; omega

/-- A word below 2^31 has its sign bit clear. -/
private theorem msb_false (a : BitVec 32) (h : a.toNat < 2 ^ 31) : a.msb = false := by
  rw [BitVec.msb_eq_false_iff_two_mul_lt]; omega

/-- A word below 2^31 is not negative. -/
private theorem slt_zero_false (a : BitVec 32) (h : a.toNat < 2 ^ 31) : a.slt 0#32 = false := by
  rw [BitVec.slt_eq_decide, BitVec.toInt_eq_toNat_of_lt (by omega)]
  simp

/-- Signed division of two such words is the natural quotient. -/
private theorem sdiv_nat (n d : ℕ) (hn : n < 2 ^ 31) (hd : d < 2 ^ 31) :
    (BitVec.ofNat 32 n).sdiv (BitVec.ofNat 32 d) = BitVec.ofNat 32 (n / d) := by
  have hq : n / d < 2 ^ 31 := lt_of_le_of_lt (Nat.div_le_self n d) hn
  rw [BitVec.sdiv_eq, msb_false _ (by rw [toNat_ofNat_lt n hn]; exact hn),
    msb_false _ (by rw [toNat_ofNat_lt d hd]; exact hd)]
  apply BitVec.eq_of_toNat_eq
  simp only [BitVec.udiv_eq, BitVec.toNat_udiv]
  rw [toNat_ofNat_lt n hn, toNat_ofNat_lt d hd, toNat_ofNat_lt _ hq]

/-- Signed remainder of two such words is the natural remainder. -/
private theorem srem_nat (n d : ℕ) (hn : n < 2 ^ 31) (hd : d < 2 ^ 31) :
    (BitVec.ofNat 32 n).srem (BitVec.ofNat 32 d) = BitVec.ofNat 32 (n % d) := by
  have hq : n % d < 2 ^ 31 := lt_of_le_of_lt (Nat.mod_le n d) hn
  rw [BitVec.srem_eq, msb_false _ (by rw [toNat_ofNat_lt n hn]; exact hn),
    msb_false _ (by rw [toNat_ofNat_lt d hd]; exact hd)]
  apply BitVec.eq_of_toNat_eq
  simp only [BitVec.toNat_umod]
  rw [toNat_ofNat_lt n hn, toNat_ofNat_lt d hd, toNat_ofNat_lt _ hq]

/-- The word of a positive number below 2^31 is not zero. -/
private theorem ofNat_ne_zero (d : ℕ) (hd : 0 < d) (hd2 : d < 2 ^ 31) : BitVec.ofNat 32 d ≠ 0 := by
  intro h
  have hB := toNat_ofNat_lt d hd2
  rw [h] at hB; simp at hB; omega

/-- A positive divisor below 2^31 is neither zero nor minus one: the division is not at its corner. -/
private theorem not_corner (x : BitVec 32) (d : ℕ) (hd : 0 < d) (hd2 : d < 2 ^ 31) :
    ¬ IntOp.SDivCorner x (BitVec.ofNat 32 d) := by
  have hB := toNat_ofNat_lt d hd2
  have h1 : (-1 : BitVec 32).toNat = 4294967295 := by decide
  rintro (h | ⟨_, h⟩)
  · rw [h] at hB; simp at hB; omega
  · rw [h, h1] at hB; omega

private theorem divsi_nat (u : ArithUnit) (n d : ℕ) (hn : n < 2 ^ 31) (hd : 0 < d) (hd2 : d < 2 ^ 31) :
    IntOp.divsi u (BitVec.ofNat 32 n) (BitVec.ofNat 32 d) = BitVec.ofNat 32 (n / d) := by
  unfold IntOp.divsi; rw [if_neg (not_corner _ d hd hd2), sdiv_nat n d hn hd2]

private theorem remsi_nat (u : ArithUnit) (n d : ℕ) (hn : n < 2 ^ 31) (hd : 0 < d) (hd2 : d < 2 ^ 31) :
    IntOp.remsi u (BitVec.ofNat 32 n) (BitVec.ofNat 32 d) = BitVec.ofNat 32 (n % d) := by
  unfold IntOp.remsi; rw [if_neg (not_corner _ d hd hd2), srem_nat n d hn hd2]

/-- Where the running count is the image of a number below 2^31, clipping and wrapping keep it. -/
theorem cidx_apply (p : Fin 4096) (n : ℕ) (hn : n < 2 ^ 31) (h : csum (ix1 p) = BitVec.ofNat 32 n) :
    cidx (ix1 p) = BitVec.ofNat 32 n := by
  have h0 : (BitVec.ofNat 32 n).toNat < 2 ^ 31 := by rw [toNat_ofNat_lt n hn]; exact hn
  -- every stage is pointwise; the constants are read at the one index of the rank-0 shape
  show Scalar.select (IntOp.cmpi .slt (IntOp.maxsi 0#32 (csum (ix1 p))) 0#32)
    (IntOp.addi (IntOp.maxsi 0#32 (csum (ix1 p))) 2016#32) (IntOp.maxsi 0#32 (csum (ix1 p))) = _
  rw [h]
  have hm : IntOp.maxsi 0#32 (BitVec.ofNat 32 n) = BitVec.ofNat 32 n := by
    unfold IntOp.maxsi; rw [slt_zero_false _ h0]; rfl
  rw [hm]
  unfold IntOp.cmpi Scalar.select
  simp only [slt_zero_false _ h0]
  rfl

/-- Floor division by a positive constant is the natural quotient. -/
theorem floorDiv_apply (a : IVec S2016 32) (d : ℕ) (hd : 0 < d) (hd2 : d < 2 ^ 31) (k : Fin 2016) (n : ℕ) (hn : n < 2 ^ 31)
    (ha : a (ix1 k) = BitVec.ofNat 32 n) :
    floorDiv a (constantI S_ 32 (BitVec.ofNat 32 d)) (ix1 k) = BitVec.ofNat 32 (n / d) := by
  show Scalar.select
      (IntOp.andi
        (IntOp.cmpi .ne
          (if a (ix1 k) = 0 then (0 : BitVec 32) else if (a (ix1 k)).msb then -1 else 1)
          (if BitVec.ofNat 32 d = 0 then (0 : BitVec 32) else if (BitVec.ofNat 32 d).msb then -1 else 1))
        (IntOp.cmpi .ne (IntOp.remsi .host (a (ix1 k)) (BitVec.ofNat 32 d)) 0#32))
      (IntOp.subi (IntOp.divsi .host (a (ix1 k)) (BitVec.ofNat 32 d)) 1#32)
      (IntOp.divsi .host (a (ix1 k)) (BitVec.ofNat 32 d)) = _
  rw [ha]
  have hdlt : (BitVec.ofNat 32 d).toNat < 2 ^ 31 := by rw [toNat_ofNat_lt d hd2]; exact hd2
  have hnlt : (BitVec.ofNat 32 n).toNat < 2 ^ 31 := by rw [toNat_ofNat_lt n hn]; exact hn
  have hd0 : BitVec.ofNat 32 d ≠ 0 := ofNat_ne_zero d hd hd2
  rw [divsi_nat _ n d hn hd hd2, remsi_nat _ n d hn hd hd2, if_neg hd0, msb_false _ hdlt, msb_false _ hnlt]
  -- the divisor's sign is 1; the dividend's is 0 (then the remainder is 0) or 1: the correction never applies
  by_cases h0 : n = 0
  · subst h0
    simp [IntOp.cmpi, IntOp.andi, Scalar.select]
  · have hn0 : BitVec.ofNat 32 n ≠ 0 := ofNat_ne_zero n (Nat.pos_of_ne_zero h0) hn
    rw [if_neg hn0]
    simp [IntOp.cmpi, IntOp.andi, Scalar.select]

/-- The remainder by a positive constant is the natural remainder. -/
theorem pyMod_apply (a : IVec S2016 32) (d : ℕ) (hd : 0 < d) (hd2 : d < 2 ^ 31) (k : Fin 2016) (n : ℕ) (hn : n < 2 ^ 31)
    (ha : a (ix1 k) = BitVec.ofNat 32 n) :
    pyMod a (constantI S_ 32 (BitVec.ofNat 32 d)) (ix1 k) = BitVec.ofNat 32 (n % d) := by
  unfold pyMod
  simp only [select, andi, cmpi, addi, Host.remsi, broadcastInDim, constantI, id]
  rw [ha]
  have hdlt : (BitVec.ofNat 32 d).toNat < 2 ^ 31 := by rw [toNat_ofNat_lt d hd2]; exact hd2
  have hd0 : BitVec.ofNat 32 d ≠ 0 := ofNat_ne_zero d hd hd2
  -- the divisor is not zero: it is kept
  have hsel : Scalar.select (IntOp.cmpi CmpIPredicate.eq (BitVec.ofNat 32 d) 0#32) (1#32) (BitVec.ofNat 32 d)
      = BitVec.ofNat 32 d := by
    have hb : (BitVec.ofNat 32 d == 0#32) = false := beq_eq_false_iff_ne.mpr hd0
    unfold IntOp.cmpi Scalar.select
    simp only [hb]
    simp
  have hq : n % d < 2 ^ 31 := lt_of_le_of_lt (Nat.mod_le n d) hn
  have hr : (BitVec.ofNat 32 (n % d)).toNat < 2 ^ 31 := by rw [toNat_ofNat_lt _ hq]; exact hq
  rw [hsel, remsi_nat _ n d hn hd hd2]
  -- neither the remainder nor the divisor is negative: the signs agree and the correction never applies
  unfold IntOp.cmpi
  simp only [slt_zero_false _ hr, slt_zero_false _ hdlt]
  simp [IntOp.andi, Scalar.select]

end Cert.TriuGram.RefIdx

end
-- ==== Proof.Mask.lean ====
/-
  The mask, read at a flat position.  The reference writes 1.0 where the row index is below the column index and 0.0
  elsewhere, asks where that float differs from 0.0, flattens the 64 × 64 bits row-major and widens them to 32-bit words:
  the word at flat position q is 1 when q / 64 < q mod 64 and 0 otherwise.
-/
import proofs.«117476_j32238024524281_1_alg».proof.Proof.RefIndex
import Idealize.ShloMosaic.Lib.ValueIdx
import Idealize.ShloMosaic.Lib.Pipeline.Value
import Idealize.ShloMosaic.PureOps.Ideal.Laws

noncomputable section

namespace Cert.TriuGram.RefIdx

open Idealize.ShloMosaic Idealize.ShloMosaic.ValueIdx Cert.ReferenceIdeal Cert.ReferenceIdeal.Facts₀

variable [Cert.ReferenceIdeal.Facts]

/-- A signed "at least" between two words below 64 (the left one with a zero added) is the comparison of the
    naturals. -/
theorem sge_small (a b : Nat) (ha : a < 64) (hb : b < 64) :
    IntOp.cmpi .sge (IntOp.addi (BitVec.ofNat 32 a) 0#32) (BitVec.ofNat 32 b) = if b ≤ a then 1#1 else 0#1 := by
  have e : (BitVec.ofNat 32 b).sle (BitVec.ofNat 32 a) = decide (b ≤ a) := by
    rw [BitVec.sle_eq_decide]
    congr 1
    apply propext
    have h1 : (BitVec.ofNat 32 a).toInt = a := by
      rw [BitVec.toInt_eq_toNat_of_lt (by rw [BitVec.toNat_ofNat]; omega), BitVec.toNat_ofNat]; omega
    have h2 : (BitVec.ofNat 32 b).toInt = b := by
      rw [BitVec.toInt_eq_toNat_of_lt (by rw [BitVec.toNat_ofNat]; omega), BitVec.toNat_ofNat]; omega
    rw [h1, h2]; omega
  show BitVec.ofBool ((BitVec.ofNat 32 b).sle (BitVec.ofNat 32 a + 0#32)) = _
  rw [BitVec.add_zero, e]
  by_cases h : b ≤ a
  · simp [h]
  · simp [h]

/-- A scalar broadcast to the 64 × 64 shape reads the scalar everywhere. -/
theorem bcast64_apply {α : Type} (x : S_.Idx → α) (j : S64x64.Idx) :
    broadcastInDim S64x64 ![] bcast_S_S64x64 x j = x ix0 := by
  unfold broadcastInDim; exact congrArg x (funext fun a => a.elim0)

/-- The f32 pattern 0x3F800000 is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The triangle of floats at (a, b): 0 on and below the diagonal, 1 above it. -/
theorem triF_apply (a b : Fin 64) : triF (ix2 a b) = if b.val ≤ a.val then (0 : EReal) else 1 := by
  unfold triF
  rw [select_apply, bcast64_apply, bcast64_apply, constant_apply, constant_apply, Ideal.ofBits_zero_f32, ofBits_one]
  have hc : cmpi .sge (addi (iotaInDim S64x64 32 0) (broadcastInDim S64x64 ![] bcast_S_S64x64 (constantI S_ 32 0#32)))
      (iotaInDim S64x64 32 1) (ix2 a b) = if b.val ≤ a.val then 1#1 else 0#1 := by
    show IntOp.cmpi .sge (IntOp.addi (BitVec.ofNat 32 a.val) (broadcastInDim S64x64 ![] bcast_S_S64x64 (constantI S_ 32 0#32) (ix2 a b)))
      (BitVec.ofNat 32 b.val) = _
    rw [bcast64_apply]
    exact sge_small a.val b.val a.isLt b.isLt
  rw [hc]
  by_cases h : b.val ≤ a.val
  · rw [if_pos h, if_pos h, select_one]
  · rw [if_neg h, if_neg h, select_zero]

/-- The mask's bit at (a, b): set above the diagonal. -/
theorem maskB_apply (a b : Fin 64) : maskB (ix2 a b) = if a.val < b.val then 1#1 else 0#1 := by
  unfold maskB
  rw [cmpf_apply, triF_apply, bcast64_apply, constant_apply, Ideal.ofBits_zero_f32, Ideal.cmpf_def]
  unfold Ideal.cmp
  by_cases h : b.val ≤ a.val
  · rw [if_pos h, if_neg (by omega)]; simp
  · rw [if_neg h, if_pos (by omega)]; simp

/-- The flattened mask at position q: one above the diagonal, zero elsewhere. -/
theorem mask32_apply (q : Fin 4096) :
    mask32 (ix1 q) = BitVec.ofNat 32 (if q.val / 64 < q.val % 64 then 1 else 0) := by
  unfold mask32
  rw [extui_apply]
  have hq := q.isLt
  rw [shapeCast_apply maskB shapeCasts_S64x64_S4096 (ix1 q)
    (ix2 (⟨q.val / 64, by omega⟩ : Fin 64) (⟨q.val % 64, by omega⟩ : Fin 64)) (by
      rw [Shape.rowMajor_val_two, Shape.rowMajor_val_one]
      show q.val / 64 * 64 + q.val % 64 = q.val
      omega)]
  rw [maskB_apply]
  by_cases h : q.val / 64 < q.val % 64
  · rw [if_pos h, if_pos h]; rfl
  · rw [if_neg h, if_neg h]; rfl

end Cert.TriuGram.RefIdx

end
-- ==== Proof.IndexEq.lean ====
/-
  The computed index table is the literal one.  Stage by stage, at a position: the flattened mask is 1 above the diagonal;
  its running count at flat position p is cntF p; clipping and wrapping keep it; the scatter-add of ones counts, for every
  k < 2016, the positions whose running count is k; the running count of those counts at k is the number of positions whose
  running count is at most k, which is the flat position 64 · i + j of the k-th pair (i, j) above the diagonal; its quotient
  and remainder by 64 are i and j.  The literal columns hold exactly those i and j (decided entry by entry).
-/
import proofs.«117476_j32238024524281_1_alg».proof.Proof.RefIndex
import proofs.«117476_j32238024524281_1_alg».proof.Proof.Tables
import proofs.«117476_j32238024524281_1_alg».proof.Proof.LibCumsum
import proofs.«117476_j32238024524281_1_alg».proof.Proof.LibScatterCount
import proofs.«117476_j32238024524281_1_alg».proof.Proof.LibTriangle
import proofs.«117476_j32238024524281_1_alg».proof.Proof.IntOps
import proofs.«117476_j32238024524281_1_alg».proof.Proof.Mask
import Idealize.ShloMosaic.Lib.ValueIdx
import Idealize.ShloMosaic.Lib.Pipeline.Value

noncomputable section

namespace Cert.TriuGram.RefIdx

open Idealize.ShloMosaic Idealize.ShloMosaic.ValueIdx Cert.ReferenceIdeal Cert.ReferenceIdeal.Facts₀ Cert.TriuGram

/-- The running count of the mask at flat position p. -/
theorem csum_apply (p : Fin 4096) : csum (ix1 p) = BitVec.ofNat 32 (cntF p) := by
  unfold csum cntF
  exact reduceWindow_cumsum (n := 4096) (lo := 4095) rfl mask32
    (fun q => if q.val / 64 < q.val % 64 then 1 else 0) mask32_apply _ (fun _ => rfl) _ _ p

/-- Clipped and wrapped, it is the same word: the count is at most 2016. -/
theorem cidx_eq (p : Fin 4096) : cidx (ix1 p) = BitVec.ofNat 32 (cntF p) :=
  cidx_apply p (cntF p) (lt_of_le_of_lt (cntF_le p) (by norm_num)) (csum_apply p)

/-- The index column of the scatter at update p. -/
theorem sidx_apply (p : Fin 4096) :
    broadcastInDim S4096x1 ![0] bcast_S4096_S4096x1_0 cidx (ix2 p 0) = BitVec.ofNat 32 (cntF p) := by
  rw [broadcastInDim_apply ![0] bcast_S4096_S4096x1_0 cidx (ix2 p 0) (ix1 p)
    (fun a => by match a with | ⟨0, _⟩ => rfl)]
  exact cidx_eq p

/-- How many flat positions have running count k. -/
theorem counts_apply (k : Fin 2016) :
    counts (ix1 k) = BitVec.ofNat 32 (Finset.univ.filter fun p : Fin 4096 => cntF p = k.val).card := by
  unfold counts
  exact scatter_add_ones_count (N := 2016) (n := 4096) scatter_S2016_S4096x1_S4096_n_0_0_1_wf _ (fun _ => rfl) _ cntF
    (fun p => lt_of_le_of_lt (cntF_le p) (by norm_num)) sidx_apply _ (fun _ => rfl) k

/-- The flat position of the k-th pair, through the literal columns. -/
theorem flatPos_apply (k : Fin 2016) :
    flatPos (ix1 k) = BitVec.ofNat 32 (64 * (KernelIdeal.lit0 k).toNat + (KernelIdeal.lit1 k).toNat) := by
  obtain ⟨h1, h2, h3⟩ := table_facts k
  unfold flatPos
  rw [reduceWindow_cumsum (n := 2016) (lo := 2015) rfl counts
    (fun q => (Finset.univ.filter fun p : Fin 4096 => cntF p = q.val).card) counts_apply
    (broadcastInDim S_ ![] bcast_S_S_ (constantI S_ 32 0#32)) (fun _ => rfl) _ _ k,
    flatPos_nat k _ _ h1 h2 h3]

/-- The first coordinate of the k-th pair. -/
theorem rows_apply (k : Fin 2016) : rows (ix1 k) = KernelIdeal.lit0 k := by
  obtain ⟨h1, h2, _⟩ := table_facts k
  have hpos : 64 * (KernelIdeal.lit0 k).toNat + (KernelIdeal.lit1 k).toNat < 2 ^ 31 := by omega
  have hq := floorDiv_apply flatPos 64 (by norm_num) (by norm_num) k _ hpos (flatPos_apply k)
  have hq' : (64 * (KernelIdeal.lit0 k).toNat + (KernelIdeal.lit1 k).toNat) / 64 < 2 ^ 31 := by omega
  have hm := pyMod_apply (floorDiv flatPos (constantI S_ 32 (BitVec.ofNat 32 64))) 64 (by norm_num) (by norm_num) k _ hq' hq
  have e : (64 * (KernelIdeal.lit0 k).toNat + (KernelIdeal.lit1 k).toNat) / 64 % 64 = (KernelIdeal.lit0 k).toNat := by omega
  rw [e] at hm
  exact hm.trans (by simp)

/-- The second coordinate of the k-th pair. -/
theorem cols_apply (k : Fin 2016) : cols (ix1 k) = KernelIdeal.lit1 k := by
  obtain ⟨h1, h2, _⟩ := table_facts k
  have hpos : 64 * (KernelIdeal.lit0 k).toNat + (KernelIdeal.lit1 k).toNat < 2 ^ 31 := by omega
  have hq := floorDiv_apply flatPos 1 (by norm_num) (by norm_num) k _ hpos (flatPos_apply k)
  have hq' : (64 * (KernelIdeal.lit0 k).toNat + (KernelIdeal.lit1 k).toNat) / 1 < 2 ^ 31 := by omega
  have hm := pyMod_apply (floorDiv flatPos (constantI S_ 32 (BitVec.ofNat 32 1))) 64 (by norm_num) (by norm_num) k _ hq' hq
  have e : (64 * (KernelIdeal.lit0 k).toNat + (KernelIdeal.lit1 k).toNat) / 1 % 64 = (KernelIdeal.lit1 k).toNat := by omega
  rw [e] at hm
  exact hm.trans (by simp)

/-- A rank-one index is its coordinate's row-major position. -/
theorem rowMajor_ix1 (k : Fin 2016) : S2016.rowMajor (ix1 k) = k :=
  Fin.ext (Shape.rowMajor_val_one _)

/-- The computed first column is the literal one. -/
theorem rows_eq : rows = lit0v := by
  funext i
  obtain ⟨k, rfl⟩ : ∃ k : Fin 2016, i = ix1 k := ⟨i 0, eq_ix1 i⟩
  rw [rows_apply]
  unfold lit0v
  rw [rowMajor_ix1]

/-- The computed second column is the literal one. -/
theorem cols_eq : cols = lit1v := by
  funext i
  obtain ⟨k, rfl⟩ : ∃ k : Fin 2016, i = ix1 k := ⟨i 0, eq_ix1 i⟩
  rw [cols_apply]
  unfold lit1v
  rw [rowMajor_ix1]

end Cert.TriuGram.RefIdx

end
-- ==== Proof.Glue.lean ====
/-
  The two programs meet.  The kernel's result is the selection, through the literal index columns, of the Gram array read
  entry by entry; the reference's is the selection, through the computed columns, of the host's batched product.  At the
  extended reals the host's product read at an entry IS that sum; the computed columns are the literal ones; and the two
  programs' gather records are one record.
-/
import proofs.«117476_j32238024524281_1_alg».proof.Proof.Spec
import proofs.«117476_j32238024524281_1_alg».proof.Proof.IndexEq
import proofs.«117476_j32238024524281_1_alg».proof.KernelIdeal
import proofs.«117476_j32238024524281_1_alg».proof.ReferenceIdeal
import proofs.«117476_j32238024524281_1_alg».proof.Proof.Gen.KernelIdeal
import proofs.«117476_j32238024524281_1_alg».proof.Proof.Gen.ReferenceIdeal
import Idealize.ShloMosaic.PureOps.Ideal.Laws

noncomputable section

namespace Cert.TriuGram

open Idealize.ShloMosaic

/-- The two programs select through the same gather record. -/
theorem gather_eq :
    Cert.KernelIdeal.gather_S4096x64x64_S2016x2_S4096x2016_0_12_n_n_12_1_409611
      = Cert.ReferenceIdeal.gather_S4096x64x64_S2016x2_S4096x2016_0_12_n_n_12_1_409611 := rfl

/-- The host's batched product of x with itself, at the extended reals, is the Gram array. -/
theorem gram_eq (x : FVec Ideal SX .f32) :
    gramSpec gramDims x
      = Host.dotGeneral (F := Ideal) (φ₁ := .f32) (φ₂ := .f32)
          Cert.ReferenceIdeal.dot_S4096x64x256_S4096x64x256_S4096x64x64_2_2_1_1_0_0 none x x := by
  funext J
  rw [Host.dotGeneral, Ideal.dotGeneral_apply]
  rfl

/-- The reference's selection is the kernel's. -/
theorem pick_eq (x : FVec Ideal SX .f32) :
    pick (F := Ideal) Cert.ReferenceIdeal.gather_S4096x64x64_S2016x2_S4096x2016_0_12_n_n_12_1_409611
        Cert.ReferenceIdeal.Facts₀.bcast_S_S2016 Cert.ReferenceIdeal.Facts₀.bcast_S2016_S2016x1_0
        Cert.ReferenceIdeal.Facts₀.concatenates_S2016x1_S2016x1_S2016x2_d1
        (Host.dotGeneral (F := Ideal) (φ₁ := .f32) (φ₂ := .f32)
          Cert.ReferenceIdeal.dot_S4096x64x256_S4096x64x256_S4096x64x64_2_2_1_1_0_0 none x x) RefIdx.rows RefIdx.cols
      = pick (F := Ideal) Cert.KernelIdeal.gather_S4096x64x64_S2016x2_S4096x2016_0_12_n_n_12_1_409611
        Cert.KernelIdeal.Facts₀.bcast_S_S2016 Cert.KernelIdeal.Facts₀.bcast_S2016_S2016x1_0
        Cert.KernelIdeal.Facts₀.concatenates_S2016x1_S2016x1_S2016x2_d1
        (gramSpec gramDims x) lit0v lit1v := by
  rw [← gram_eq, RefIdx.rows_eq, RefIdx.cols_eq, gather_eq]

end Cert.TriuGram

end
-- ==== Proof.lean ====
/-
  The certificate.  Both programs compute, for 4096 matrices x[b] of shape 64 × 256, the 2016 entries strictly above the
  diagonal of the Gram matrix x[b] · x[b]ᵀ, in row-major order of the pairs.  The kernel multiplies on the matrix unit, 128
  matrices per grid point (its narrowing of the factors to bf16 is the identity on extended reals), and selects through two
  literal index columns; the reference multiplies on the host and computes the index columns (mask, running count, counts of
  the counts, their running count, quotient and remainder by 64).  The three frames are the programs' runs; the idealization
  rewrote nothing; the results agree because the products are one sum entry by entry and the computed columns are the
  literal ones.
-/
import proofs.«117476_j32238024524281_1_alg».proof.Defs
import proofs.«117476_j32238024524281_1_alg».proof.Proof.Gen.Kernel
import proofs.«117476_j32238024524281_1_alg».proof.Proof.Gen.Kernel.Frame
import proofs.«117476_j32238024524281_1_alg».proof.Proof.Gen.KernelIdeal
import proofs.«117476_j32238024524281_1_alg».proof.Proof.Gen.KernelIdeal.Frame
import proofs.«117476_j32238024524281_1_alg».proof.Proof.Gen.ReferenceIdeal
import proofs.«117476_j32238024524281_1_alg».proof.Proof.Gen.Pre_finite_inputs
import proofs.«117476_j32238024524281_1_alg».proof.Proof.KernelValue
import proofs.«117476_j32238024524281_1_alg».proof.Proof.RefRun
import proofs.«117476_j32238024524281_1_alg».proof.Proof.Glue
import Idealize.ShloMosaic.Adequacy
import Idealize.ShloMosaic.Init

noncomputable section

namespace Cert.Proof

open Idealize.ShloMosaic Idealize.SL.Sem Cert.TriuGram

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (RV.run m ρ)

/-- From memories agreeing on the argument, both runs end at the same selection of the same Gram array. -/
theorem algebraic : Cert.algebraic_KernelIdeal_ReferenceIdeal := by
  intro m ρ m' ρ' _ hagree
  refine ⟨_, KV.run m ρ, ?_⟩
  refine (θ_run Cert.ReferenceIdeal.defs _ _).mono (fun _ h c => ⟨(h c).1.trans ?_, (h c).2⟩) (RV.run m' ρ')
  rw [hagree c]
  exact pick_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
